-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.MaskedLinear.lean ====
/-
  The masked linear map, as ONE function of the four argument arrays, index by index.

  For a batch row `b` and an output unit `o`:

      out[b, o] = (∑ k, x[b, k] · w[o, k]) · mask[b, o] + bias[o]

  over the extended reals: the rows of `x` contracted against the rows of `w` (both along their second axis), the
  product gated entry by entry by `mask`, then the bias of the output unit added.  Both programs of this certificate
  compute exactly this term at the ideal instance, so no law of the extended reals beyond the definition is needed:
  the two sides differ only in how the contraction index is spelt and in how the result is cut into row blocks.
-/
import Idealize.ShloMosaic.PureOps.Ideal
import Idealize.ShloMosaic.Lib.ValueIdx

noncomputable section

open scoped BigOperators

namespace Cert.MaskedLinear

open Idealize.ShloMosaic Idealize.ShloMosaic.ValueIdx

/-- `out[b, o] = (∑ k, x[b, k] · w[o, k]) · mask[b, o] + bias[o]`, for `x, mask : [8192, 1024]`, `w : [1024, 1024]`,
    `bias : [1024]`. -/
def maskedLinear (x mask : FVec Ideal ⟨2, ![8192, 1024]⟩ .f32) (w : FVec Ideal ⟨2, ![1024, 1024]⟩ .f32)
    (bias : FVec Ideal ⟨1, ![1024]⟩ .f32) : FVec Ideal ⟨2, ![8192, 1024]⟩ .f32 :=
  fun i => (∑ k : Fin 1024, x (ix2 (i 0) k) * w (ix2 (i 1) k)) * mask i + bias (ix1 (i 1))

/-- The same at an index given by its coordinates. -/
theorem maskedLinear_apply (x mask : FVec Ideal ⟨2, ![8192, 1024]⟩ .f32) (w : FVec Ideal ⟨2, ![1024, 1024]⟩ .f32)
    (bias : FVec Ideal ⟨1, ![1024]⟩ .f32) (b : Fin 8192) (o : Fin 1024) :
    maskedLinear x mask w bias (ix2 b o)
      = (∑ k : Fin 1024, x (ix2 b k) * w (ix2 o k)) * mask (ix2 b o) + bias (ix1 o) := rfl

end Cert.MaskedLinear

end
-- ==== Proof.ReferenceValue.lean ====
/-
  The reference computes the masked linear map.

  Its five host operations, read at an output index `(b, o)`:
    • the `dot_general` contracting axis 1 of `x` with axis 1 of `w` is `∑ k, x[b, k] · w[o, k]`;
    • the product with `mask` is taken entry by entry;
    • the bias, broadcast first to `[1, 1024]` and then to `[8192, 1024]`, reads `bias[o]` at every row;
    • the final sum adds the two.
  So the result at `(b, o)` is `(∑ k, x[b, k] · w[o, k]) · mask[b, o] + bias[o]`, which is `maskedLinear` by definition once
  the operand indices the operations compute are recognised as the coordinates `(b, k)`, `(o, k)` and `o`.
-/
import proofs.«426573_j84834194030971_3_alg».proof.Proof.Gen.ReferenceIdeal.Read
import proofs.«426573_j84834194030971_3_alg».proof.Proof.MaskedLinear

noncomputable section

open scoped BigOperators

namespace Cert.ReferenceIdeal.RefValue

open Cert.ReferenceIdeal Cert.ReferenceIdeal.Read Idealize.ShloMosaic Idealize.ShloMosaic.ValueIdx Cert.MaskedLinear

/-- The left operand of the contraction at output index `i` and contraction coordinate `k` is `x[i₀, k]`. -/
theorem lidx_eq (i : S8192x1024.Idx) (k : Fin 1024) : lidx_main_v0 i k = ix2 (i 0) k :=
  funext fun a => by match a with | ⟨0, _⟩ => rfl | ⟨1, _⟩ => rfl

/-- The right operand there is `w[i₁, k]`: the weight's ROW is the output unit. -/
theorem ridx_eq (i : S8192x1024.Idx) (k : Fin 1024) : ridx_main_v0 i k = ix2 (i 1) k :=
  funext fun a => by match a with | ⟨0, _⟩ => rfl | ⟨1, _⟩ => rfl

/-- The twice-broadcast bias at output index `i` reads `bias[i₁]`. -/
theorem bidx_eq (i : S8192x1024.Idx) : idx_main_v2 (idx_main_v3 i) = ix1 (i 1) :=
  funext fun a => by match a with | ⟨0, _⟩ => rfl

/-- The reference's result, as a function of the four argument arrays, is the masked linear map. -/
theorem result_eq (x mask : (⟨S8192x1024, .f32⟩ : BufTy).Contents (Elt Ideal)) (w : (⟨S1024x1024, .f32⟩ : BufTy).Contents (Elt Ideal))
    (bias : (⟨S1024, .f32⟩ : BufTy).Contents (Elt Ideal)) :
    val_main_v4 (F := Ideal) x mask w bias = maskedLinear x mask w bias := by
  funext i
  rw [val_main_v4_apply, val_main_v1_apply, val_main_v0_apply, val_main_v3_apply, val_main_v2_apply]
  simp only [lidx_eq, ridx_eq, bidx_eq, Ideal.addf_def, Ideal.mulf_def]
  rfl

end Cert.ReferenceIdeal.RefValue

end
-- ==== Proof.BodyValue.lean ====
/-
  What the kernel's body stores, read at one entry of its block.

  At a grid point the body holds a `[512, 1024]` block of `x` and of `mask`, the whole weight `w : [1024, 1024]` and the
  bias as one row `[1, 1024]`.  It narrows `x` and `w` to bf16 (the identity on extended reals), multiplies them on the
  matrix unit contracting the SECOND axis of both into a zero accumulator, gates the product by the mask block and adds
  the bias row broadcast over the 512 rows.  At entry `(p, q)` of the block that is

      (∑ k, xblk[p, k] · w[q, k]) · maskblk[p, q] + biasrow[0, q].
-/
import proofs.«426573_j84834194030971_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The matrix product's operand indices

The product's dimension numbers contract axis 1 of the left operand with axis 1 of the right one; axis 0 of each is
free.  So at output index `i` and contraction index `q` the left operand is read at `(i₀, q)` and the right one at
`(i₁, q)`. -/

theorem lhs_axis0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_axis0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product into a zero accumulator, at entry `i`: the sum over the 1024 contraction positions of the left
    operand's row `i₀` against the right operand's row `i₁`. -/
theorem matmul_at (a : FVec Ideal S512x1024 .bf16) (b : FVec Ideal S1024x1024 .bf16) (i : S512x1024.Idx) :
    matmul dot_S512x1024_S1024x1024_S512x1024_1_1_0_0_n_n none a b (constant (F := Ideal) S512x1024 .f32 0x00000000#32) i
      = ∑ k : Fin 1024, a (ix2 (i 0) k) * b (ix2 (i 1) k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx i ((contrEquiv1 dot_S512x1024_S1024x1024_S512x1024_1_1_0_0_n_n 1024 rfl rfl).symm k) = ix2 (i 0) k := funext fun a => Fin.ext (by
    match a with
    | ⟨0, _⟩ => exact lhs_axis0 _ _
    | ⟨1, _⟩ => exact (lhs_axis1 _ _).trans hk)
  have er : dot_S512x1024_S1024x1024_S512x1024_1_1_0_0_n_n.rhsIdx i ((contrEquiv1 dot_S512x1024_S1024x1024_S512x1024_1_1_0_0_n_n 1024 rfl rfl).symm k) = ix2 (i 1) k := funext fun a => Fin.ext (by
    match a with
    | ⟨0, _⟩ => exact rhs_axis0 _ _
    | ⟨1, _⟩ => exact (rhs_axis1 _ _).trans hk)
  rw [el, er]
  rfl

/-! ## The stored value at an entry -/

/-- Entry `(p, q)` of what the body stores: row `p` of the `x` block against row `q` of the weight, gated by the mask
    block's entry, plus the bias row's entry `q`. -/
theorem stored_at (xblk mblk : Vec Ideal S512x1024 .f32) (w : Vec Ideal S1024x1024 .f32) (brow : Vec Ideal S1x1024 .f32)
    (p : Fin 512) (q : Fin 1024) :
    k0_pay1 (F := Ideal) xblk w mblk brow (ix2 p q)
      = (∑ k : Fin 1024, xblk (ix2 p k) * w (ix2 q k)) * mblk (ix2 p q) + brow (ix2 (0 : Fin 1) q) := by
  unfold k0_pay1
  rw [addf_apply, mulf_apply, matmul_at, shapeCast_self, broadcastTo_1b_ab_apply]
  rfl

end Cert.KernelIdeal.BodyValue

end
-- ==== Proof.KernelValue.lean ====
/-
  From the kernel's blocks to its result array.

  The grid has 16 points; point `t` works on rows `512·t … 512·t + 511`.  Its `x` and `mask` blocks are those rows of the
  two arguments, the weight block is the whole weight, the bias block is the bias laid out as one row (a host reshape
  `[1024] → [1, 1024]` made before the launch), and the output block is written back to the same rows of the result.
  Since every output row depends only on the same row of `x` and `mask` (and on all of `w` and `bias`), what point `t`
  writes back is block `t` of the masked linear map of the whole arguments; the 16 blocks tile the `[8192, 1024]` result,
  so after the run the result array IS that map.
-/
import proofs.«426573_j84834194030971_3_alg».proof.Proof.Gen.KernelIdeal.Value
import proofs.«426573_j84834194030971_3_alg».proof.Proof.BodyValue
import proofs.«426573_j84834194030971_3_alg».proof.Proof.MaskedLinear
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.MaskedLinear Cert.KernelIdeal.BodyValue
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where each window's block sits -/

/-- The printed index maps over the 16 grid points: the `x`, `mask` and output windows move together down the rows and
    stay at column block 0; the weight and bias windows never move; the output's row block stays below 16. -/
theorem block_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every one of the 16 row blocks is some point's output block. -/
theorem block_onto : ∀ r : Fin 16, ∃ t : Fin cfg0.N, win0_4.index t (0 : Fin 2) = r.val :=
  (by decide +kernel : ∀ r : Fin 16, ∃ t : Fin grid0.N, win0_4.index t (0 : Fin 2) = r.val)

/-! ## The input blocks as entries of the arguments -/

/-- Entry `y` of the `x` block at point `t` is the argument's entry at the block's offset plus `y`. -/
theorem xblk_apply (c : Dev nD) (t : Fin cfg0.N) (y : S512x1024.Idx) (i : S8192x1024.Idx)
    (h0 : (i 0).val = win0_0.index t (0 : Fin 2) * 512 + (y 0).val) (h1 : (i 1).val = win0_0.index t (1 : Fin 2) * 1024 + (y 1).val) :
    (iblk m c 0 t : Vec Ideal S512x1024 .f32) y = (m ((c : Thread nD τ).loc main_arg0) : S8192x1024.Idx → EReal) i := by
  unfold iblk
  rw [View.read_apply]
  show V m c main_arg0 _ = _
  rw [V_main_arg0]
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The same for the `mask` block. -/
theorem mblk_apply (c : Dev nD) (t : Fin cfg0.N) (y : S512x1024.Idx) (i : S8192x1024.Idx)
    (h0 : (i 0).val = win0_1.index t (0 : Fin 2) * 512 + (y 0).val) (h1 : (i 1).val = win0_1.index t (1 : Fin 2) * 1024 + (y 1).val) :
    (iblk m c 1 t : Vec Ideal S512x1024 .f32) y = (m ((c : Thread nD τ).loc main_arg1) : S8192x1024.Idx → EReal) i := by
  unfold iblk
  rw [View.read_apply]
  show V m c main_arg1 _ = _
  rw [V_main_arg1]
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 1024 + 1 * (y 1).val = (i 1).val; omega

/-- The weight block is the whole weight. -/
theorem wblk_apply (c : Dev nD) (t : Fin cfg0.N) (y : S1024x1024.Idx) (i : S1024x1024.Idx)
    (h0 : (i 0).val = win0_2.index t (0 : Fin 2) * 1024 + (y 0).val) (h1 : (i 1).val = win0_2.index t (1 : Fin 2) * 1024 + (y 1).val) :
    (iblk m c 2 t : Vec Ideal S1024x1024 .f32) y = (m ((c : Thread nD τ).loc main_arg2) : S1024x1024.Idx → EReal) i := by
  unfold iblk
  rw [View.read_apply]
  show V m c main_arg2 _ = _
  rw [V_main_arg2]
  refine congrArg _ (funext fun a => Fin.ext ?_)
  match a with
  | ⟨0, _⟩ => show win0_2.index t (0 : Fin 2) * 1024 + 1 * (y 0).val = (i 0).val; omega
  | ⟨1, _⟩ => show win0_2.index t (1 : Fin 2) * 1024 + 1 * (y 1).val = (i 1).val; omega

/-- The bias as the launch finds it: the `[1024]` argument recast as one row. -/
theorem bias_row (c : Dev nD) :
    (V m c main_call0_v0 : S1x1024.Idx → EReal)
      = shapeCast S1x1024 (m ((c : Thread nD τ).loc main_arg3) : S1024.Idx → EReal) shapeCasts_S1024_S1x1024 := by
  dsimp only [Gen.V, Gen.hostOps0]
  after_results
  rfl

/-- Entry `(0, q)` of the bias block is `bias[q]`. -/
theorem bblk_apply (c : Dev nD) (t : Fin cfg0.N) (q : Fin 1024) :
    (iblk m c 3 t : Vec Ideal S1x1024 .f32) (ix2 (0 : Fin 1) q) = (m ((c : Thread nD τ).loc main_arg3) : S1024.Idx → EReal) (ix1 q) := by
  obtain ⟨-, -, -, -, -, -, e30, e31, -, -⟩ := block_indices t
  unfold iblk
  rw [View.read_apply]
  show V m c main_call0_v0 _ = _
  rw [bias_row, ← shapeCast_a_1a_apply (m ((c : Thread nD τ).loc main_arg3) : S1024.Idx → EReal) shapeCasts_S1024_S1x1024 (0 : Fin 1) q]
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-! ## What a point writes back -/

/-- The result array the run should end with: the masked linear map of the four arguments as launched. -/
abbrev result (c : Dev nD) : Buf (Elt Ideal) ((c : Thread nD τ).loc main_v0) :=
  maskedLinear (m ((c : Thread nD τ).loc main_arg0)) (m ((c : Thread nD τ).loc main_arg1))
    (m ((c : Thread nD τ).loc main_arg2)) (m ((c : Thread nD τ).loc main_arg3))

/-- Entry `(p, q)` of the body's stored block, when row `p` of the `x` and `mask` blocks is row `b` of the arguments, the
    weight block is the weight and the bias row is the bias: the masked linear map at `(b, q)`. -/
theorem stored_is_maskedLinear (xblk mblk : Vec Ideal S512x1024 .f32) (wblk : Vec Ideal S1024x1024 .f32) (brow : Vec Ideal S1x1024 .f32)
    (x mask : FVec Ideal ⟨2, ![8192, 1024]⟩ .f32) (w : FVec Ideal ⟨2, ![1024, 1024]⟩ .f32) (bias : FVec Ideal ⟨1, ![1024]⟩ .f32)
    (b : Fin 8192) (p : Fin 512) (q : Fin 1024)
    (hx : ∀ k : Fin 1024, xblk (ix2 p k) = x (ix2 b k)) (hm : mblk (ix2 p q) = mask (ix2 b q))
    (hw : ∀ k : Fin 1024, wblk (ix2 q k) = w (ix2 q k)) (hb : brow (ix2 (0 : Fin 1) q) = bias (ix1 q)) :
    k0_pay1 (F := Ideal) xblk wblk mblk brow (ix2 p q) = maskedLinear x mask w bias (ix2 b q) := by
  rw [stored_at, maskedLinear_apply, hm, hb]
  refine congrArg (fun s => s * mask (ix2 b q) + bias (ix1 q)) (Finset.sum_congr rfl fun k _ => ?_)
  rw [hx k, hw k]

/-- WHAT POINT `t` WRITES BACK is block `t` of the masked linear map of the whole arguments. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S512x1024) zero_offsets, View.ld_unit_zero (S := S1024x1024) zero_offsets,
    View.ld_unit_zero (S := S1x1024) zero_offsets]
  obtain ⟨e00, e01, e10, e11, e20, e21, e30, e31, e41, e40⟩ := block_indices t
  refine funext fun (j : S512x1024.Idx) => ?_
  obtain ⟨p, q, rfl⟩ : ∃ (p : Fin 512) (q : Fin 1024), j = ix2 p q := ⟨j 0, j 1, eq_ix2 j⟩
  have hp : p.val < 512 := p.isLt
  have hemb : ((cfg0.win 4).blk t).view.emb (ix2 p q) = (ix2 (⟨win0_4.index t (0 : Fin 2) * 512 + p.val, by omega⟩ : Fin 8192) q : S8192x1024.Idx) := by
    refine funext fun a => Fin.ext ?_
    match a with
    | ⟨0, _⟩ => show win0_4.index t (0 : Fin 2) * 512 + 1 * p.val = win0_4.index t (0 : Fin 2) * 512 + p.val; omega
    | ⟨1, _⟩ => show win0_4.index t (1 : Fin 2) * 1024 + 1 * q.val = q.val; omega
  show k0_pay1 (F := Ideal) (iblk m c 0 t) (iblk m c 2 t) (iblk m c 1 t) (iblk m c 3 t) (ix2 p q)
    = result m c (((cfg0.win 4).blk t).view.emb (ix2 p q))
  rw [hemb]
  exact stored_is_maskedLinear (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    ⟨win0_4.index t (0 : Fin 2) * 512 + p.val, by omega⟩ p q
    (fun k => xblk_apply m c t (ix2 p k) (ix2 ⟨win0_4.index t (0 : Fin 2) * 512 + p.val, by omega⟩ k) (by show win0_4.index t (0 : Fin 2) * 512 + p.val = win0_0.index t (0 : Fin 2) * 512 + p.val; omega) (by show k.val = win0_0.index t (1 : Fin 2) * 1024 + k.val; omega))
    (mblk_apply m c t (ix2 p q) (ix2 ⟨win0_4.index t (0 : Fin 2) * 512 + p.val, by omega⟩ q) (by show win0_4.index t (0 : Fin 2) * 512 + p.val = win0_1.index t (0 : Fin 2) * 512 + p.val; omega) (by show q.val = win0_1.index t (1 : Fin 2) * 1024 + q.val; omega))
    (fun k => wblk_apply m c t (ix2 q k) (ix2 q k) (by show q.val = win0_2.index t (0 : Fin 2) * 1024 + q.val; omega) (by show k.val = win0_2.index t (1 : Fin 2) * 1024 + k.val; omega))
    (bblk_apply m c t q)

/-! ## The blocks tile the result -/

/-- An index of the result is in point `t`'s block iff each coordinate is in the block's range on its axis. -/
theorem mem_block (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0).slice (win0_4.rect t)).set ↔ _
  rw [View.set_slice_whole, Rect.mem_set_unit]
  exact Iff.rfl

/-- Row `r` of the result lies in the block of the point whose row block is `r / 512`. -/
theorem covered (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := block_onto ⟨(i 0).val / 512, by omega⟩
  have ht' : win0_4.index t (0 : Fin 2) = (i 0).val / 512 := ht
  obtain ⟨-, -, -, -, -, -, -, -, e41, -⟩ := block_indices t
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE RESULT ARRAY after the run is the masked linear map of the arguments. -/
theorem final (c : Dev nD) : (dats m 0 c).arrAt 4 cfg0.N = result m c :=
  (dats m 0 c).arrAt_eq_of_cover 4 (result m c) (fun t _ => flushed_eq m c t) covered

/-- The kernel's run, read: the result at the masked linear map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.KernelIdeal.ArrayValue

end
-- ==== Proof.lean ====
/-
  The kernel: a masked linear layer.  For `x, mask : [8192, 1024]`, `w : [1024, 1024]`, `bias : [1024]`,

      out[b, o] = (∑ k, x[b, k] · w[o, k]) · mask[b, o] + bias[o].

  The Pallas kernel walks the 8192 rows in 16 blocks of 512; at each block it narrows the `x` block and the whole weight
  to bf16, contracts them on the matrix unit along the second axis of both into a zero accumulator, multiplies by the
  mask block and adds the bias, laid out beforehand as one row.  The reference is one `dot_general` contracting the same
  axes, a product with the mask and a sum with the broadcast bias.

  Read over the extended reals a change of float format is the identity, the matrix unit's product into a zero
  accumulator and the host's `dot_general` are both the plain sum `∑ k, x[b, k] · w[o, k]`, and the two programs gate
  and shift it in the same order, so both results are the one function `maskedLinear` of the arguments
  (Proof/MaskedLinear.lean), entry by entry and with no algebraic law needed — in particular nothing here uses that
  the inputs are finite.  The reference side is Proof/ReferenceValue.lean; the body's stored value at an entry is
  Proof/BodyValue.lean; that the 16 written-back blocks are the blocks of `maskedLinear` and tile the result is
  Proof/KernelValue.lean.  The three programs' runs and frames come from the generated modules; the idealization
  rewrote nothing, so `preserves` is trivial.
-/
import proofs.«426573_j84834194030971_3_alg».proof.Defs
import proofs.«426573_j84834194030971_3_alg».proof.Proof.Gen.Kernel
import proofs.«426573_j84834194030971_3_alg».proof.Proof.Gen.Kernel.Skeleton
import proofs.«426573_j84834194030971_3_alg».proof.Proof.Gen.Kernel.Launch
import proofs.«426573_j84834194030971_3_alg».proof.Proof.Gen.Kernel.Points
import proofs.«426573_j84834194030971_3_alg».proof.Proof.Gen.Kernel.Frame
import proofs.«426573_j84834194030971_3_alg».proof.Proof.Gen.KernelIdeal
import proofs.«426573_j84834194030971_3_alg».proof.Proof.Gen.KernelIdeal.Skeleton
import proofs.«426573_j84834194030971_3_alg».proof.Proof.Gen.KernelIdeal.Launch
import proofs.«426573_j84834194030971_3_alg».proof.Proof.Gen.KernelIdeal.Points
import proofs.«426573_j84834194030971_3_alg».proof.Proof.Gen.KernelIdeal.Frame
import proofs.«426573_j84834194030971_3_alg».proof.Proof.Gen.KernelIdeal.Value
import proofs.«426573_j84834194030971_3_alg».proof.Proof.Gen.ReferenceIdeal
import proofs.«426573_j84834194030971_3_alg».proof.Proof.Gen.ReferenceIdeal.Run
import proofs.«426573_j84834194030971_3_alg».proof.Proof.Gen.ReferenceIdeal.Read
import proofs.«426573_j84834194030971_3_alg».proof.Proof.Gen.Pre_finite_inputs
import proofs.«426573_j84834194030971_3_alg».proof.Proof.MaskedLinear
import proofs.«426573_j84834194030971_3_alg».proof.Proof.ReferenceValue
import proofs.«426573_j84834194030971_3_alg».proof.Proof.BodyValue
import proofs.«426573_j84834194030971_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the masked linear map of its arguments
    (`ArrayValue.run`), and the reference's at its five operations' term of arguments that agree with the kernel's,
    which is the same map (`RefValue.result_eq`). -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
